-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel

variable [Facts]

def fn {F : FTy → Type} [FloatOps F] (main_arg0 : FVec F S64x256x56x56 .f32) (main_arg1 : FVec F S64x256x56x56 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_v4 : FVec F S64x256x56x56 .f32 := Host.absf main_arg1
  let main_cst_0 : FVec F S_ .f32 := constant S_ .f32 0x7F800000#32
  let main_v5 : FVec F S64x256x56x56 .f32 := broadcastInDim S64x256x56x56 ![] bcast_S_S64x256x56x56 main_cst_0
  let main_v6 : IVec S64x256x56x56 1 := cmpf .olt main_v4 main_v5
  let main_c_1 : IVec S_ 1 := constantI S_ 1 1#1
  let main_v7 : IVec S_ 1 := (fun x v => Host.reduce IntOp.andi x v reducesTo_S64x256x56x56_S_d0_1_2_3 h_S_) main_v6 main_c_1
  let main_v8 : IVec S_ 1 := andi main_v3 main_v7
  main_v8
-- ==== Kernel.lean ====
abbrev S64x256x56x56 : Shape := ⟨4, ![64, 256, 56, 56]⟩
abbrev S401408x128 : Shape := ⟨2, ![401408, 128]⟩
abbrev S1x1 : Shape := ⟨2, ![1, 1]⟩
abbrev S8192x128 : Shape := ⟨2, ![8192, 128]⟩
abbrev S8192 : Shape := ⟨1, ![8192]⟩
abbrev S8192x1 : Shape := ⟨2, ![8192, 1]⟩
abbrev S1 : Shape := ⟨1, ![1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S64x256x56x56, .f32⟩
  | .hbm, ⟨1, _⟩ => ⟨S64x256x56x56, .f32⟩
  | .hbm, ⟨2, _⟩ => ⟨S401408x128, .f32⟩
  | .hbm, ⟨3, _⟩ => ⟨S401408x128, .f32⟩
  | .hbm, ⟨4, _⟩ => ⟨S1x1, .f32⟩
  | .hbm, ⟨5, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S1x1, .f32⟩
  | .local _ .vmem, ⟨5, _⟩ => ⟨S1x1, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![49], ![false]⟩

def k0_cond2 (i : grid0.Coords) : BitVec 1 :=
  let arg0 : BitVec 32 := BitVec.ofNat 32 (i 0).val
  let c48_i32 : BitVec 32 := 48#32
  let v26 : BitVec 1 := Scalar.cmpi .eq arg0 c48_i32
  let v27 : BitVec 32 := Scalar.extui v26
  let c0_i32_11 : BitVec 32 := 0#32
  let v28 : BitVec 1 := Scalar.cmpi .ne v27 c0_i32_11
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S64x256x56x56_S401408x128 : S64x256x56x56.ShapeCasts S401408x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S8192 : S8192x128.Reduces [1] S8192
  shapeCasts_S8192_S8192x1 : S8192.ShapeCasts S8192x1
  reduces_S8192x1_S1 : S8192x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S401408x128.size a
  hwx0_0 : ∀ i : grid0.Coords, EltTy.bits .f32 = 32 ∨ (Rect.block (s := S401408x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S401408x128.size a
  hwx0_1 : ∀ i : grid0.Coords, EltTy.bits .f32 = 32 ∨ (Rect.block (s := S401408x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x256x56x56 : Shape := ⟨4, ![64, 256, 56, 56]⟩
abbrev S51380224 : Shape := ⟨1, ![51380224]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S64x256x56x56, .f32⟩
  | .hbm, ⟨2, _⟩ => ⟨S51380224, .f32⟩
  | .hbm, ⟨3, _⟩ => ⟨S51380224, .f32⟩
  | .hbm, ⟨4, _⟩ => ⟨S_, .f32⟩
  | .hbm, ⟨5, _⟩ => ⟨S51380224, .f32⟩
  | .hbm, ⟨6, _⟩ => ⟨S51380224, .i1⟩
  | .hbm, ⟨7, _⟩ => ⟨S_, .f32⟩
  | .hbm, ⟨8, _⟩ => ⟨S51380224, .f32⟩
  | .hbm, ⟨9, _⟩ => ⟨S51380224, .i1⟩
  | .hbm, ⟨10, _⟩ => ⟨S51380224, .i1⟩
  | .hbm, ⟨11, _⟩ => ⟨S51380224, .f32⟩
  | .hbm, ⟨12, _⟩ => ⟨S51380224, .f32⟩
  | .hbm, ⟨13, _⟩ => ⟨S51380224, .f32⟩
  | .hbm, ⟨14, _⟩ => ⟨S51380224, .f32⟩
  | .hbm, ⟨15, _⟩ => ⟨S51380224, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  shapeCasts_S64x256x56x56_S51380224 : S64x256x56x56.ShapeCasts S51380224
  bcast_S_S51380224 : S_.BroadcastsInDim S51380224 (![] : Fin 0 → Fin S51380224.rank)
  reducesTo_S51380224_S_d0 : S51380224.ReducesTo [0] S_
  h_S_ : 0 < S_.numel

variable [Facts₀]

class Facts : Prop extends Facts₀ where

variable [Facts]
-- ==== Proof.KernelCases.lean ====
/-
  What each control case of the body leaves behind, as values.

  The body meets three cases over the grid.  At the first point it resets the carried cell to the reset value, reads
  that back and stores the update of it by the point's two blocks.  At a middle point it stores the update of what the
  point before left.  At the last point it does the same and then stores, into the output block, the final value of
  the cell it has just updated.  In every case the cell is covered by its last store, so what the case leaves is that
  store's value with each load replaced by what it reads: the whole input blocks, and the cell's contents.  The
  update's first operand is the second window's block, its second operand the first window's.
-/
import proofs.«119313_j38955353375166_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Cases

open Cert.KernelIdeal Cert.KernelIdeal.Gen

variable {F : FTy → Type} [FloatOps F]

/-- Every access of the body starts at the origin of its buffer. -/
theorem zeroOffsets : (![0, 0] : Fin 2 → Nat) = fun _ => 0 := funext fun a => by fin_cases a <;> rfl

/-- A middle point leaves in the carried cell the update of what it found there. -/
theorem scratch_B (c : Dev nD) (i : grid0.Coords) (a1 : Memref sig .tc .vmem S8192x128 .f32) (h1 : a1.IsWhole)
    (a2 : Memref sig .tc .vmem S8192x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S8192x128 .f32) (xs0 : Vec F S1x1 .f32) :
    sout0_B_0 c i a1 h1 a2 h2 a3 h3 a4 h4 hc0 hc1 x0 x1 xs0 = k0_pay2 x1 x0 xs0 := by
  unfold sout0_B_0
  rw [View.read_writes_eq_canon _ _ _ (scover0_B_0 c i a1 h1 a2 h2 a3 h3 a4 h4 hc0 hc1 x0 x1 xs0)]
  unfold kernelRun0_B
  dsimp only
  sl_unfold_words
  rw [View.canon_unit_zero zeroOffsets]
  simp only [View.readAt_eq_ld, h1.read_unread, h2.read_unread, h4.read_unread,
    View.ld_unit_zero (S := S8192x128) zeroOffsets, View.ld_unit_zero (S := S1x1) zeroOffsets]

/-- The first point leaves in the carried cell the update of the reset value. -/
theorem scratch_A (c : Dev nD) (i : grid0.Coords) (a1 : Memref sig .tc .vmem S8192x128 .f32) (h1 : a1.IsWhole)
    (a2 : Memref sig .tc .vmem S8192x128 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S8192x128 .f32) :
    sout0_A_0 c i a1 h1 a2 h2 a3 h3 a4 h4 hc0 hc1 x0 x1 = k0_pay2 x1 x0 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) zeroOffsets, View.readCov_unit_zero (S := S1x1) _ zeroOffsets]
  simp only [View.readAt_eq_ld, h1.read_unread, h2.read_unread, View.ld_unit_zero (S := S8192x128) zeroOffsets]

/-- The last point leaves in the carried cell the update of what it found there. -/
theorem scratch_C (c : Dev nD) (i : grid0.Coords) (a1 : Memref sig .tc .vmem S8192x128 .f32) (h1 : a1.IsWhole)
    (a2 : Memref sig .tc .vmem S8192x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S8192x128 .f32) (xs0 : Vec F S1x1 .f32) :
    sout0_C_0 c i a1 h1 a2 h2 a3 h3 a4 h4 hc0 hc1 x0 x1 xs0 = k0_pay2 x1 x0 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero zeroOffsets]
  simp only [View.readAt_eq_ld, h1.read_unread, h2.read_unread, h4.read_unread,
    View.ld_unit_zero (S := S8192x128) zeroOffsets, View.ld_unit_zero (S := S1x1) zeroOffsets]

/-- The last point leaves in the output block the final value of the updated cell. -/
theorem output_C (c : Dev nD) (i : grid0.Coords) (a1 : Memref sig .tc .vmem S8192x128 .f32) (h1 : a1.IsWhole)
    (a2 : Memref sig .tc .vmem S8192x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S8192x128 .f32) (xs0 : Vec F S1x1 .f32) :
    out0_C_2 c i a1 h1 a2 h2 a3 h3 a4 h4 hc0 hc1 x0 x1 xs0 = k0_pay3 (k0_pay2 x1 x0 xs0) := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero zeroOffsets]
  simp only [View.readCov_unit_zero (S := S1x1) _ zeroOffsets, View.readAt_eq_ld, h1.read_unread, h2.read_unread,
    h4.read_unread, View.ld_unit_zero (S := S8192x128) zeroOffsets, View.ld_unit_zero (S := S1x1) zeroOffsets]

end Cert.KernelIdeal.Cases

end
-- ==== Proof.Spec.lean ====
/-
  The mathematics of the mean-squared feedback residual, with no program in sight.

  One element: from a target value `a` and a source value `b` the residual is
  `d = (if a < 0 and b < 0 then b - a else a - b) - a`, and the element contributes `d * d`.
  The loss is the sum of these contributions over all 51380224 positions, divided by their number.

  Two ways of arranging that sum meet here.  One runs over the flat positions `k < 51380224` at once.
  The other cuts the positions into 49 consecutive blocks of 8192 rows of 128 lanes, sums each row over
  its lanes, each block over its rows, and the blocks one after the other into a running total that
  starts at zero.  Position `(s, r, l)` of the blocked arrangement is flat position
  `(s * 8192 + r) * 128 + l`, every flat position occurs exactly once, and addition on the extended
  reals is commutative and associative, so both arrangements give the same total: no finiteness of the
  summands is needed.
-/
import Idealize.ShloMosaic.PureOps.Ideal
import Idealize.ShloMosaic.PureOps.Ideal.Laws
import Idealize.ShloMosaic.Lib.ValueIdx
import Idealize.ShloMosaic.Lib.Pipeline.Value

noncomputable section

namespace Cert.FeedbackLoss

open Idealize.ShloMosaic Idealize.ShloMosaic.ValueIdx

/-- The contribution of one element: the square of `(if a < 0 ∧ b < 0 then b - a else a - b) - a`, written with the
    elementwise operations both programs apply (the comparison against the zero word, the conjunction of the two
    one-bit answers, the selection, the subtractions, the product). -/
def contrib (a b : Ideal .f32) : Ideal .f32 :=
  FloatOps.mulf
    (FloatOps.subf (Scalar.select (IntOp.andi (FloatOps.cmpf .olt a (FloatOps.ofBits .f32 0x00000000#32))
        (FloatOps.cmpf .olt b (FloatOps.ofBits .f32 0x00000000#32))) (FloatOps.subf b a) (FloatOps.subf a b)) a)
    (FloatOps.subf (Scalar.select (IntOp.andi (FloatOps.cmpf .olt a (FloatOps.ofBits .f32 0x00000000#32))
        (FloatOps.cmpf .olt b (FloatOps.ofBits .f32 0x00000000#32))) (FloatOps.subf b a) (FloatOps.subf a b)) a)

/-! ## Regrouping a sum over consecutive blocks -/

/-- A sum over `m` consecutive stretches of length `n` is the sum over all `m * n` positions: position `j` of
    stretch `i` is position `i * n + j`. -/
theorem sum_stretches {M : Type} [AddCommMonoid M] (m n : ℕ) (f : ℕ → M) :
    ∑ i : Fin m, ∑ j : Fin n, f (i.val * n + j.val) = ∑ k : Fin (m * n), f k.val := by
  rw [← Equiv.sum_comp finProdFinEquiv (fun k : Fin (m * n) => f k.val), Fintype.sum_prod_type]
  refine Finset.sum_congr rfl fun i _ => Finset.sum_congr rfl fun j _ => ?_
  congr 1
  simp only [finProdFinEquiv_apply_val]
  rw [Nat.mul_comm n i.val, Nat.add_comm]

/-- Blocks of rows of lanes: the sum over 49 blocks of 8192 rows of 128 lanes, position `(s, r, l)` read at
    `(s * 8192 + r) * 128 + l`, is the sum over all 51380224 flat positions. -/
theorem sum_blocks_rows_lanes (g : ℕ → EReal) :
    ∑ s : Fin 49, ∑ r : Fin 8192, ∑ l : Fin 128, g ((s.val * 8192 + r.val) * 128 + l.val)
      = ∑ k : Fin 51380224, g k.val := by
  have h1 : ∀ s : Fin 49, ∑ r : Fin 8192, ∑ l : Fin 128, g ((s.val * 8192 + r.val) * 128 + l.val)
      = ∑ q : Fin 8192, (fun R : ℕ => ∑ l : Fin 128, g (R * 128 + l.val)) (s.val * 8192 + q.val) := fun s => rfl
  rw [Finset.sum_congr rfl fun s _ => h1 s]
  rw [sum_stretches 49 8192 (fun R : ℕ => ∑ l : Fin 128, g (R * 128 + l.val))]
  exact sum_stretches (49 * 8192) 128 g

/-! ## The running total -/

/-- The running total after block `n`: it starts from `z` and adds block after block, in order. -/
def running (z : EReal) (P : ℕ → EReal) : ℕ → EReal
  | 0 => z + P 0
  | n + 1 => running z P n + P (n + 1)

/-- The running total after block `n` is the start value plus the sum of the blocks `0, …, n`. -/
theorem running_eq (z : EReal) (P : ℕ → EReal) (n : ℕ) :
    running z P n = z + ∑ s ∈ Finset.range (n + 1), P s := by
  induction n with
  | zero => simp [running]
  | succ n ih => rw [running, ih, Finset.sum_range_succ _ (n + 1), add_assoc]

/-- After the last of 49 blocks the running total is the start value plus the sum over the 49 blocks. -/
theorem running_last (z : EReal) (P : ℕ → EReal) :
    running z P 48 = z + ∑ s : Fin 49, P s.val := by
  rw [running_eq, Finset.sum_range]

/-! ## A block's partial sum -/

/-- Summing an `[8192, 128]` block over its lanes, viewing the `[8192]` row sums as an `[8192, 1]` column, summing
    that over its rows and viewing the one result as a `[1, 1]` block gives, at its one position, the double sum
    over rows and lanes. -/
theorem rows_lanes_sum (v : FVec Ideal ⟨2, ![8192, 128]⟩ .f32)
    (h1 : (⟨2, ![8192, 128]⟩ : Shape).Reduces [1] ⟨1, ![8192]⟩) (c1 : (⟨1, ![8192]⟩ : Shape).ShapeCasts ⟨2, ![8192, 1]⟩)
    (h0 : (⟨2, ![8192, 1]⟩ : Shape).Reduces [0] ⟨1, ![1]⟩) (c0 : (⟨1, ![1]⟩ : Shape).ShapeCasts ⟨2, ![1, 1]⟩)
    (hφ : FKind.Formats .f32) (hacc1 hacc0 : (0x00000000#32 : BitVec 32) = FKind.add.neutral .f32 hφ)
    (j : (⟨2, ![1, 1]⟩ : Shape).Idx) :
    shapeCast ⟨2, ![1, 1]⟩ (multiReduction .add [0] ⟨1, ![1]⟩
        (shapeCast ⟨2, ![8192, 1]⟩ (multiReduction .add [1] ⟨1, ![8192]⟩ v 0x00000000#32 h1 hφ hacc1) c1)
        0x00000000#32 h0 hφ hacc0) c0 j
      = ∑ r : Fin 8192, ∑ l : Fin 128, v (ix2 r l) := by
  refine (shapeCast_apply _ c0 j (ix1 (0 : Fin 1)) ?_).trans ?_
  · rw [Shape.rowMajor_val_one, Shape.rowMajor_val_two]
    have hj0 : (j 0).val < 1 := (j 0).isLt
    have hj1 : (j 1).val < 1 := (j 1).isLt
    show (0 : ℕ) = (j 0).val * 1 + (j 1).val
    omega
  refine (Ideal.multiReduction_add_single _ 0x00000000#32 h0 hφ hacc0 (ix1 (0 : Fin 1))).trans ?_
  refine Finset.sum_congr rfl fun r _ => ?_
  refine (shapeCast_apply _ c1 _ (ix1 r) ?_).trans ?_
  · rw [Shape.rowMajor_val_one, Shape.rowMajor_val_two]
    have e0 : (h0.lift (ix1 (0 : Fin 1)) r 0).val = r.val := rfl
    have e1 : (h0.lift (ix1 (0 : Fin 1)) r 1).val = 0 := rfl
    rw [e0, e1]
    show r.val = r.val * 1 + 0
    omega
  refine (Ideal.multiReduction_add_single v 0x00000000#32 h1 hφ hacc1 (ix1 r)).trans ?_
  refine Finset.sum_congr rfl fun l _ => ?_
  congr 1
  funext a
  match a with
  | ⟨0, _⟩ => rfl
  | ⟨1, _⟩ => rfl

end Cert.FeedbackLoss

end
-- ==== Proof.KernelPayloads.lean ====
/-
  The body's three stored values, read at the extended reals.

  The reset stores the zero word.  The update stores the carried total plus the block's partial sum: the double
  sum, over the block's rows and lanes, of each element's contribution (the target block is the first operand, the
  source block the second).  The last point stores the carried total divided by the element count's word.
-/
import proofs.«119313_j38955353375166_1_alg».proof.Proof.Gen.KernelIdeal.Skeleton
import proofs.«119313_j38955353375166_1_alg».proof.Proof.Spec

noncomputable section

open Idealize.ShloMosaic Idealize.ShloMosaic.ValueIdx

namespace Cert.KernelIdeal.Payloads

open Cert.KernelIdeal Cert.KernelIdeal.Gen Cert.FeedbackLoss

/-- A block's partial sum: every element's contribution, summed over the lanes of each row and over the rows. -/
def blockSum (tgt src : FVec Ideal S8192x128 .f32) : EReal :=
  ∑ r : Fin 8192, ∑ l : Fin 128, contrib (tgt (ix2 r l)) (src (ix2 r l))

/-- The reset's value at its one position: the zero word. -/
theorem reset_apply (j : S1x1.Idx) : k0_pay1 (F := Ideal) j = FloatOps.ofBits (F := Ideal) .f32 0x00000000#32 := by
  unfold k0_pay1
  exact congrFun (shapeCast_self _ _) j

/-- The update's value at its one position: the carried value there plus the block's partial sum. -/
theorem update_apply (tgt src : FVec Ideal S8192x128 .f32) (carried : FVec Ideal S1x1 .f32) (j : S1x1.Idx) :
    k0_pay2 (F := Ideal) tgt src carried j = carried j + blockSum tgt src := by
  unfold k0_pay2
  simp only [shapeCast_self]
  show carried j + _ = carried j + _
  congr 1
  exact rows_lanes_sum _ _ _ _ _ _ _ _ j

/-- The last point's value at its one position: the carried value there divided by the element count's word. -/
theorem final_apply (carried : FVec Ideal S1x1 .f32) (j : S1x1.Idx) :
    k0_pay3 (F := Ideal) carried j = Ideal.div (carried j) (FloatOps.ofBits (F := Ideal) .f32 0x4C440000#32) := rfl

end Cert.KernelIdeal.Payloads

end
-- ==== Proof.KernelValue.lean ====
/-
  The idealized kernel's result.

  The scratch cell carried from grid point to grid point holds, after point `n`, the running total of the blocks
  `0, …, n`: point `0` resets it to the zero word and adds block `0`'s partial sum, every later point adds its own
  block's partial sum to what the point before left (induction on the point, one step per control case).  The last
  point, 48, also stores the total divided by the element count's word into the `[1, 1]` output block, which is the
  only block ever written back and is the whole output array; the host then views that array as a scalar.
-/
import proofs.«119313_j38955353375166_1_alg».proof.Proof.KernelCases
import proofs.«119313_j38955353375166_1_alg».proof.Proof.KernelPayloads
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Cases Cert.KernelIdeal.Payloads Cert.FeedbackLoss

variable (m : (ℓ : Loc nD τ sig) → Buf (Elt Ideal) ℓ) (ρ : Dev nD → PrngReg)

/-- The target's block at a grid point (the pipeline's second window). -/
abbrev tgtBlk (c : Dev nD) (t : Fin cfg0.N) : FVec Ideal S8192x128 .f32 := iblk m c 1 t
/-- The source's block at a grid point (the pipeline's first window). -/
abbrev srcBlk (c : Dev nD) (t : Fin cfg0.N) : FVec Ideal S8192x128 .f32 := iblk m c 0 t

/-- Block `n`'s partial sum (zero past the grid's last point, where nothing is asked of it). -/
def blockPart (c : Dev nD) (n : ℕ) : EReal :=
  if h : n < cfg0.N then blockSum (tgtBlk m c ⟨n, h⟩) (srcBlk m c ⟨n, h⟩) else 0

theorem blockPart_of_lt (c : Dev nD) (n : ℕ) (h : n < cfg0.N) :
    blockPart m c n = blockSum (tgtBlk m c ⟨n, h⟩) (srcBlk m c ⟨n, h⟩) := dif_pos h

/-- The zero word the reset stores. -/
abbrev zeroWord : EReal := FloatOps.ofBits (F := Ideal) .f32 0x00000000#32

/-- After point `n` the carried scratch cell holds the running total of the blocks up to `n`. -/
theorem carried_eq (c : Dev nD) : ∀ (n : ℕ) (h : n < cfg0.N) (j : S1x1.Idx),
    (outsAt0 m c n h).2 j = running zeroWord (blockPart m c) n
  | 0, h, j => by
    rw [outsAt0_A m c ⟨0, h⟩ rfl (by show ¬(0 % 49 = 48); decide)]
    dsimp only
    rw [scratch_A, update_apply, reset_apply, running, blockPart_of_lt m c 0 h]
  | n + 1, h, j => by
    have hN : cfg0.N = 49 := N_0
    have h0 : ¬(⟨n + 1, h⟩ : Fin cfg0.N).val % 49 = 0 := by dsimp only; omega
    by_cases h1 : (⟨n + 1, h⟩ : Fin cfg0.N).val % 49 = 48
    · rw [outsAt0_C m c ⟨n + 1, h⟩ h0 h1]
      dsimp only
      rw [scratch_C, update_apply, running, blockPart_of_lt m c (n + 1) h]
      show (outsAt0 m c n _).2 j + _ = _
      rw [carried_eq c n _ j]
    · rw [outsAt0_B m c ⟨n + 1, h⟩ h0 h1]
      dsimp only
      rw [scratch_B, update_apply, running, blockPart_of_lt m c (n + 1) h]
      show (outsAt0 m c n _).2 j + _ = _
      rw [carried_eq c n _ j]

/-- The sum of all contributions as the kernel accumulates it: the running total after the last point. -/
def total (c : Dev nD) : EReal := running zeroWord (blockPart m c) 48

/-- The kernel's loss value: the total divided by the element count's word. -/
def loss (c : Dev nD) : EReal := Ideal.div (total m c) (FloatOps.ofBits (F := Ideal) .f32 0x4C440000#32)

/-- At the last point the output block holds the loss value. -/
theorem output_last (c : Dev nD) (t : Fin cfg0.N) (ht : t.val % 49 = 48) (j : S1x1.Idx) :
    (outsAt0 m c t.val t.isLt).1 j = loss m c := by
  have hN : cfg0.N = 49 := N_0
  have h0 : ¬t.val % 49 = 0 := by omega
  have h48 : t.val = 48 := by have := t.isLt; omega
  rw [outsAt0_C m c t h0 ht]
  dsimp only
  rw [output_C, final_apply, update_apply]
  have hp : t.val - 1 < cfg0.N := by omega
  rw [carried_eq m c (t.val - 1) hp j]
  unfold loss total
  congr 1
  obtain ⟨n, hn⟩ := t
  dsimp only at h48
  subst h48
  rw [running, blockPart_of_lt m c 48 hn]
  rfl

/-- The output array as the region leaves it: its one cell at the loss value. -/
abbrev outArray (c : Dev nD) : Buf (Elt Ideal) ((c : Thread nD τ).loc main_v2) := fun _ => loss m c

/-- The one write-back, at the last point, writes the loss value. -/
theorem flushed_eq (c : Dev nD) (t : Fin cfg0.N) (hf : (cfg0.win 2).flush t = true) :
    (dats m 0 c).flushed 2 t = ((cfg0.win 2).blk t).view.read (Elt Ideal) (outArray m c) := by
  have ht : t.val % 49 = 48 := (flush0_2 t).mp hf
  funext x
  rw [View.read_apply]
  show (cfg0.win 2).cut (grid0.coords t) ((dats m 0 c).after 2 t) x = loss m c
  rw [after0_2]
  exact output_last m c t ht _

/-- The grid's last point. -/
abbrev lastPoint : Fin cfg0.N := ⟨48, lt_of_lt_of_eq (by decide) N_0.symm⟩

/-- So the output array ends at the loss value: the last point's block is the whole `[1, 1]` array. -/
theorem final_out (c : Dev nD) : (dats m 0 c).arrAt 2 cfg0.N = outArray m c :=
  (dats m 0 c).arrAt_eq_of_cover 2 (outArray m c) (flushed_eq m c) fun i =>
    ⟨lastPoint, (flush0_2 lastPoint).mpr rfl, by
      show i ∈ ((View.whole main_v2).slice (win0_2.rect lastPoint)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index lastPoint 0 * win0_2.size 0 ≤ (i 0 : Nat) ∧ (i 0 : Nat) < win0_2.index lastPoint 0 * win0_2.size 0 + win0_2.xsize (grid0.coords lastPoint) 0
        rw [show win0_2.index lastPoint 0 * win0_2.size 0 = 0 from by decide +kernel, show win0_2.xsize (grid0.coords lastPoint) 0 = 1 from by decide +kernel]
        omega
      | ⟨1, _⟩ =>
        show win0_2.index lastPoint 1 * win0_2.size 1 ≤ (i 1 : Nat) ∧ (i 1 : Nat) < win0_2.index lastPoint 1 * win0_2.size 1 + win0_2.xsize (grid0.coords lastPoint) 1
        rw [show win0_2.index lastPoint 1 * win0_2.size 1 = 0 from by decide +kernel, show win0_2.xsize (grid0.coords lastPoint) 1 = 1 from by decide +kernel]
        omega⟩

/-- The kernel's run, read: the scalar result at the loss value, both arguments unchanged. -/
theorem run : θ_run defs (onTc (τ := τ) (main (F := Ideal))) ⟨m, fun _ => 0, ρ⟩ fun r => ∀ c : Dev nD,
      r.2.mem ((c.tc : Thread nD τ).loc main_v3) = (fun _ => loss m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (by
        unfold Pipeline.afterTail₀
        show StableHlo.after hostOps1 _ (Proc.devRef .tc main_v3) = _
        after_results
        rw [(Pipeline.withArrays_arr spec0 launch0.win.arr_inj c _ _ 2).trans (final_out m c)]
        rfl),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Result

end
-- ==== Proof.KernelBlocks.lean ====
/-
  Where the kernel's blocks sit in the arguments.

  The host views each `[64, 256, 56, 56]` argument as a `[401408, 128]` array; the pipeline's block at grid point `t`
  is its rows `8192 t, …, 8192 t + 8191`.  So entry `(r, l)` of the block at point `t` is the argument's entry at the
  row-major position `(8192 t + r) * 128 + l`.
-/
import proofs.«119313_j38955353375166_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The 4-dimensional index at row-major position `k`. -/
abbrev unflat (k : ℕ) (hk : k < 51380224) : S64x256x56x56.Idx := fun a => match a with
  | ⟨0, _⟩ => ⟨k / 802816, by show k / 802816 < 64; omega⟩
  | ⟨1, _⟩ => ⟨k / 3136 % 256, by show k / 3136 % 256 < 256; omega⟩
  | ⟨2, _⟩ => ⟨k / 56 % 56, by show k / 56 % 56 < 56; omega⟩
  | ⟨3, _⟩ => ⟨k % 56, by show k % 56 < 56; omega⟩

/-- The flat position of entry `(r, l)` of the block at point `t` is inside the argument. -/
theorem pos_lt (t : Fin cfg0.N) (r : Fin 8192) (l : Fin 128) : (t.val * 8192 + r.val) * 128 + l.val < 51380224 := by
  have hN : t.val < 49 := lt_of_lt_of_eq t.isLt (show cfg0.N = 49 from N_0)
  have := r.isLt
  have := l.isLt
  omega

/-- The region finds the first window's array at the first argument viewed as `[401408, 128]`. -/
theorem V_src (c : Dev nD) : (V m c main_v0 : S401408x128.Idx → Elt F .f32)
    = shapeCast S401408x128 (m ((c : Thread nD τ).loc main_arg0)) shapeCasts_S64x256x56x56_S401408x128 := by
  show StableHlo.after hostOps0 (fun b => m (c, b)) (Proc.devRef .tc main_v0) = _
  after_results
  rfl

/-- The region finds the second window's array at the second argument viewed as `[401408, 128]`. -/
theorem V_tgt (c : Dev nD) : (V m c main_v1 : S401408x128.Idx → Elt F .f32)
    = shapeCast S401408x128 (m ((c : Thread nD τ).loc main_arg1)) shapeCasts_S64x256x56x56_S401408x128 := by
  show StableHlo.after hostOps0 (fun b => m (c, b)) (Proc.devRef .tc main_v1) = _
  after_results
  rfl

/-- The four coordinates of a flat position give the position back. -/
theorem unflat_pos (n : ℕ) :
    ((n / 802816 * 256 + n / 3136 % 256) * 56 + n / 56 % 56) * 56 + n % 56 = n := by
  have h1 : n / 56 / 56 = n / 3136 := Nat.div_div_eq_div_mul n 56 56
  have h2 : n / 3136 / 256 = n / 802816 := Nat.div_div_eq_div_mul n 3136 256
  omega

/-- The `[401408, 128]` view read at `(R, l)` is the argument at row-major position `R * 128 + l`. -/
theorem view_apply (x : S64x256x56x56.Idx → Elt F .f32) (R : Fin 401408) (l : Fin 128) (hk : R.val * 128 + l.val < 51380224) :
    shapeCast S401408x128 x shapeCasts_S64x256x56x56_S401408x128 (ix2 R l) = x (unflat (R.val * 128 + l.val) hk) := by
  refine shapeCast_apply x shapeCasts_S64x256x56x56_S401408x128 (ix2 R l) (unflat (R.val * 128 + l.val) hk) ?_
  rewrite [Shape.rowMajor_val_four, Shape.rowMajor_val_two]
  exact unflat_pos (R.val * 128 + l.val)

/-- Both input windows move down the rows with the grid point and never along the lanes. -/
theorem index_src : ∀ t : Fin cfg0.N, win0_0.index t 0 = t.val ∧ win0_0.index t 1 = 0 :=
  (by decide +kernel : ∀ t : Fin grid0.N, win0_0.index t 0 = t.val ∧ win0_0.index t 1 = 0)
theorem index_tgt : ∀ t : Fin cfg0.N, win0_1.index t 0 = t.val ∧ win0_1.index t 1 = 0 :=
  (by decide +kernel : ∀ t : Fin grid0.N, win0_1.index t 0 = t.val ∧ win0_1.index t 1 = 0)

/-- The row `8192 t + r` of the `[401408, 128]` view. -/
abbrev rowOf (t : Fin cfg0.N) (r : Fin 8192) : Fin 401408 :=
  ⟨t.val * 8192 + r.val, by
    have hN : t.val < 49 := lt_of_lt_of_eq t.isLt (show cfg0.N = 49 from N_0)
    have := r.isLt
    omega⟩

/-- Entry `(r, l)` of the source's block at point `t` is the first argument at flat position `(8192 t + r) * 128 + l`. -/
theorem src_apply (c : Dev nD) (t : Fin cfg0.N) (r : Fin 8192) (l : Fin 128) :
    (iblk m c 0 t : S8192x128.Idx → Elt F .f32) (ix2 r l)
      = m ((c : Thread nD τ).loc main_arg0) (unflat ((t.val * 8192 + r.val) * 128 + l.val) (pos_lt t r l)) := by
  unfold iblk
  rw [View.read_apply]
  show V m c main_v0 _ = _
  rw [V_src]
  refine Eq.trans ?_ (view_apply _ (rowOf t r) l (pos_lt t r l))
  congr 1
  funext a
  apply Fin.ext
  match a with
  | ⟨0, _⟩ => show win0_0.index t 0 * 8192 + 1 * r.val = t.val * 8192 + r.val; rw [(index_src t).1]; omega
  | ⟨1, _⟩ => show win0_0.index t 1 * 128 + 1 * l.val = l.val; rw [(index_src t).2]; omega

/-- Entry `(r, l)` of the target's block at point `t` is the second argument at flat position `(8192 t + r) * 128 + l`. -/
theorem tgt_apply (c : Dev nD) (t : Fin cfg0.N) (r : Fin 8192) (l : Fin 128) :
    (iblk m c 1 t : S8192x128.Idx → Elt F .f32) (ix2 r l)
      = m ((c : Thread nD τ).loc main_arg1) (unflat ((t.val * 8192 + r.val) * 128 + l.val) (pos_lt t r l)) := by
  unfold iblk
  rw [View.read_apply]
  show V m c main_v1 _ = _
  rw [V_tgt]
  refine Eq.trans ?_ (view_apply _ (rowOf t r) l (pos_lt t r l))
  congr 1
  funext a
  apply Fin.ext
  match a with
  | ⟨0, _⟩ => show win0_1.index t 0 * 8192 + 1 * r.val = t.val * 8192 + r.val; rw [(index_tgt t).1]; omega
  | ⟨1, _⟩ => show win0_1.index t 1 * 128 + 1 * l.val = l.val; rw [(index_tgt t).2]; omega

end Cert.KernelIdeal.Blocks

end
-- ==== Proof.RefValue.lean ====
/-
  The idealized reference's result.

  The reference flattens both arguments, forms every position's contribution, adds them all to the zero word and
  divides by the element count's word.  Read at the extended reals: the quotient of `0 + ∑ₖ contribution k` over
  the `51380224` flat positions.
-/
import proofs.«119313_j38955353375166_1_alg».proof.Proof.Gen.ReferenceIdeal.Read
import proofs.«119313_j38955353375166_1_alg».proof.Proof.Spec

noncomputable section

open Idealize.ShloMosaic Idealize.ShloMosaic.ValueIdx

namespace Cert.ReferenceIdeal.Flat

open Cert.ReferenceIdeal Cert.ReferenceIdeal.Gen Cert.ReferenceIdeal.Read Cert.FeedbackLoss

/-- A rank-one index is its one coordinate. -/
def flatEquiv (n : ℕ) : Fin n ≃ (⟨1, ![n]⟩ : Shape).Idx where
  toFun := ix1
  invFun j := j 0
  left_inv _ := rfl
  right_inv j := (eq_ix1 j).symm

/-- The contribution at a flat position: of the flattened second argument (the target) and the flattened first
    argument (the source) there. -/
theorem square_apply (x0 x1 : (⟨S64x256x56x56, .f32⟩ : BufTy).Contents (Elt Ideal)) (j : S51380224.Idx) :
    val_main_v11 (F := Ideal) x0 x1 j = contrib (x1 (idx_main_v0 j)) (x0 (idx_main_v1 j)) := by
  rw [val_main_v11_apply, val_main_v10_apply, val_main_v9_apply, val_main_v6_apply, val_main_v3_apply, val_main_v5_apply,
    val_main_v7_apply, val_main_v8_apply, val_main_v2_apply, val_main_v4_apply, val_main_cst_apply, val_main_cst_0_apply,
    val_main_v0_apply, val_main_v1_apply]
  rfl

/-- The reference's scalar: `(0 + ∑ₖ contribution k) / count`. -/
theorem result_apply (x0 x1 : (⟨S64x256x56x56, .f32⟩ : BufTy).Contents (Elt Ideal)) (i : S_.Idx) :
    val_main_v13 (F := Ideal) x0 x1 i
      = Ideal.div (FloatOps.ofBits (F := Ideal) .f32 0x00000000#32
          + ∑ k : Fin 51380224, contrib (x1 (idx_main_v0 (ix1 k))) (x0 (idx_main_v1 (ix1 k))))
        (FloatOps.ofBits (F := Ideal) .f32 0x4C440000#32) := by
  rw [val_main_v13_apply, val_main_v12_apply, val_main_cst_1_apply, val_main_cst_2_apply]
  rw [← Equiv.sum_comp (flatEquiv 51380224)]
  simp only [square_apply]
  rfl

end Cert.ReferenceIdeal.Flat

end
-- ==== Proof.Bridge.lean ====
/-
  The kernel's loss value is the reference's.

  Every entry of every block is the argument's entry at one flat position, so a block's partial sum is the sum of
  the contributions at its `8192 * 128` flat positions, and the kernel's running total after the last block is the
  zero word plus the sum over blocks, rows and lanes.  Regrouped, that is the zero word plus the sum over all
  `51380224` flat positions — the reference's sum — and both programs divide it by the same word.
-/
import proofs.«119313_j38955353375166_1_alg».proof.Proof.KernelValue
import proofs.«119313_j38955353375166_1_alg».proof.Proof.KernelBlocks
import proofs.«119313_j38955353375166_1_alg».proof.Proof.RefValue

noncomputable section

open Idealize.ShloMosaic Idealize.ShloMosaic.TcCoe Idealize.SL.Sem Idealize.ShloMosaic.ValueIdx

namespace Cert.Bridge

open Cert.KernelIdeal Cert.KernelIdeal.Gen Cert.KernelIdeal.Result Cert.KernelIdeal.Payloads Cert.KernelIdeal.Blocks
open Cert.FeedbackLoss

variable (m : (ℓ : Loc nD τ sig) → Buf (Elt Ideal) ℓ)

/-- The contribution at flat position `k` of the kernel's arguments (zero past the arguments' end, where nothing is
    asked of it): the target is the second argument, the source the first. -/
def flatContrib (c : Dev nD) (k : ℕ) : EReal :=
  if h : k < 51380224 then
    contrib (m ((c : Thread nD τ).loc main_arg1) (unflat k h)) (m ((c : Thread nD τ).loc main_arg0) (unflat k h))
  else 0

/-- A block's partial sum is the sum of the contributions at its flat positions. -/
theorem blockPart_eq (c : Dev nD) (s : Fin 49) :
    blockPart m c s.val = ∑ r : Fin 8192, ∑ l : Fin 128, flatContrib m c ((s.val * 8192 + r.val) * 128 + l.val) := by
  have h : s.val < cfg0.N := lt_of_lt_of_eq s.isLt (show cfg0.N = 49 from N_0).symm
  rw [blockPart_of_lt m c s.val h]
  unfold blockSum
  refine Finset.sum_congr rfl fun r _ => Finset.sum_congr rfl fun l _ => ?_
  unfold flatContrib
  rw [dif_pos (pos_lt ⟨s.val, h⟩ r l)]
  exact congrArg₂ contrib (tgt_apply m c ⟨s.val, h⟩ r l) (src_apply m c ⟨s.val, h⟩ r l)

/-- The kernel's total is the zero word plus the sum of the contributions at all flat positions. -/
theorem total_eq (c : Dev nD) :
    total m c = zeroWord + ∑ k : Fin 51380224, flatContrib m c k.val := by
  unfold total
  rw [running_last, Finset.sum_congr rfl fun s _ => blockPart_eq m c s, sum_blocks_rows_lanes]

/-- The four coordinates of a flat position, as the reference's flattening of its second argument names them. -/
theorem unflat_tgt (k : Fin 51380224) : unflat k.val k.isLt = Cert.ReferenceIdeal.Read.idx_main_v0 (ix1 k) := by
  funext a
  match a with
  | ⟨0, _⟩ => rfl
  | ⟨1, _⟩ => rfl
  | ⟨2, _⟩ => rfl
  | ⟨3, _⟩ => rfl

/-- The same, as its flattening of its first argument names them. -/
theorem unflat_src (k : Fin 51380224) : unflat k.val k.isLt = Cert.ReferenceIdeal.Read.idx_main_v1 (ix1 k) := by
  funext a
  match a with
  | ⟨0, _⟩ => rfl
  | ⟨1, _⟩ => rfl
  | ⟨2, _⟩ => rfl
  | ⟨3, _⟩ => rfl

/-- The contribution at a flat position inside the arguments, in the reference's index names. -/
theorem flatContrib_eq (c : Dev nD) (k : Fin 51380224) :
    flatContrib m c k.val
      = contrib (m ((c : Thread nD τ).loc main_arg1) (Cert.ReferenceIdeal.Read.idx_main_v0 (ix1 k)))
          (m ((c : Thread nD τ).loc main_arg0) (Cert.ReferenceIdeal.Read.idx_main_v1 (ix1 k))) := by
  unfold flatContrib
  rw [dif_pos k.isLt]
  exact congrArg₂ contrib (congrArg _ (unflat_tgt k)) (congrArg _ (unflat_src k))

/-- The kernel's loss value is the reference's scalar of the same arguments. -/
theorem loss_eq (c : Dev nD) (i : Cert.ReferenceIdeal.S_.Idx) :
    loss m c = Cert.ReferenceIdeal.Read.val_main_v13 (F := Ideal)
      (m ((c : Thread nD τ).loc main_arg0)) (m ((c : Thread nD τ).loc main_arg1)) i := by
  refine Eq.trans ?_ (Cert.ReferenceIdeal.Flat.result_apply
    (m ((c : Thread nD τ).loc main_arg0)) (m ((c : Thread nD τ).loc main_arg1)) i).symm
  unfold loss
  rw [total_eq]
  refine congrArg (fun s : EReal => Ideal.div (zeroWord + s) (FloatOps.ofBits (F := Ideal) .f32 0x4C440000#32)) ?_
  exact Finset.sum_congr rfl fun k _ => flatContrib_eq m c k

end Cert.Bridge

end
-- ==== Proof.lean ====
/-
  The certificate of the mean-squared feedback residual kernel against its reference.

  Both programs compute, from a source and a target of 51380224 floats, the sum over all positions of
  `((if a < 0 ∧ b < 0 then b - a else a - b) - a)²` (`a` the target's entry, `b` the source's) divided by the
  number of positions.  The kernel streams the arguments through 49 blocks of 8192 rows of 128 lanes, sums each block
  over lanes and then rows, and accumulates the block sums point after point in a carried cell that starts at zero;
  the reference sums all positions at once.  Over the extended reals the two groupings of the one sum agree, since
  addition there is commutative and associative, and both divide by the same word.

  The three frames: the two kernels' from their generated frame runs, the reference's from its generated run.  The
  idealization rewrote nothing, so there is nothing to preserve.  The value claim joins the kernel's run, read at the
  running total, to the reference's run, read at the flat sum.
-/
import proofs.«119313_j38955353375166_1_alg».proof.Defs
import proofs.«119313_j38955353375166_1_alg».proof.Proof.Gen.Kernel
import proofs.«119313_j38955353375166_1_alg».proof.Proof.Gen.Kernel.Skeleton
import proofs.«119313_j38955353375166_1_alg».proof.Proof.Gen.Kernel.Launch
import proofs.«119313_j38955353375166_1_alg».proof.Proof.Gen.Kernel.Points
import proofs.«119313_j38955353375166_1_alg».proof.Proof.Gen.Kernel.Frame
import proofs.«119313_j38955353375166_1_alg».proof.Proof.Gen.KernelIdeal
import proofs.«119313_j38955353375166_1_alg».proof.Proof.Gen.KernelIdeal.Skeleton
import proofs.«119313_j38955353375166_1_alg».proof.Proof.Gen.KernelIdeal.Launch
import proofs.«119313_j38955353375166_1_alg».proof.Proof.Gen.KernelIdeal.Points
import proofs.«119313_j38955353375166_1_alg».proof.Proof.Gen.KernelIdeal.Frame
import proofs.«119313_j38955353375166_1_alg».proof.Proof.Gen.ReferenceIdeal
import proofs.«119313_j38955353375166_1_alg».proof.Proof.Gen.Pre_finite_inputs
import proofs.«119313_j38955353375166_1_alg».proof.Proof.Gen.ReferenceIdeal.Run
import proofs.«119313_j38955353375166_1_alg».proof.Proof.Gen.ReferenceIdeal.Read
import proofs.«119313_j38955353375166_1_alg».proof.Proof.Bridge
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel :=
  fun m ρ _ => Cert.Kernel.Gen.frame m ρ

/-- The idealized kernel runs and leaves its arguments as they were. -/
theorem frame_kernelIdeal : Cert.frame_KernelIdeal :=
  fun m ρ _ => Cert.KernelIdeal.Gen.frame m ρ

/-- The idealized reference runs and leaves its arguments as they were: its run with the result dropped. -/
theorem frame_referenceIdeal : Cert.frame_ReferenceIdeal :=
  fun m ρ _ => (θ_run Cert.ReferenceIdeal.defs _ _).mono (fun _ h c => (h c).2)
    (Cert.ReferenceIdeal.Value.run (F := Ideal) m ρ)

/-- From memories agreeing on the arguments the idealized kernel ends with its scalar at the running total divided by
    the count, the idealized reference with its scalar at the flat sum divided by the count: the same extended real. -/
theorem algebraic : Cert.algebraic_KernelIdeal_ReferenceIdeal := by
  intro m ρ m' ρ' _ hagree
  refine ⟨fun c => (fun _ => Cert.KernelIdeal.Result.loss m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v13_eq]
  funext i
  exact (Cert.Bridge.loss_eq m c i).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
